-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x224x224 : Shape := ⟨4, ![64, 3, 224, 224]⟩
abbrev S64x8x2 : Shape := ⟨3, ![64, 8, 2]⟩
abbrev S_ : Shape := ⟨0, ![]⟩

class Facts : Prop where
  bcast_S_S64x3x224x224 : S_.BroadcastsInDim S64x3x224x224 (![] : Fin 0 → Fin S64x3x224x224.rank)
  reducesTo_S64x3x224x224_S_d0_1_2_3 : S64x3x224x224.ReducesTo [0, 1, 2, 3] S_
  h_S_ : 0 < S_.numel
  bcast_S_S64x8x2 : S_.BroadcastsInDim S64x8x2 (![] : Fin 0 → Fin S64x8x2.rank)
  reducesTo_S64x8x2_S_d0_1_2 : S64x8x2.ReducesTo [0, 1, 2] S_

variable [Facts]

def fn {F : FTy → Type} [FloatOps F] (main_arg0 : FVec F S64x3x224x224 .f32) (main_arg1 : IVec S64x8x2 32) : IVec S_ 1 :=
  let main_v0 : FVec F S64x3x224x224 .f32 := Host.absf main_arg0
  let main_cst : FVec F S_ .f32 := constant S_ .f32 0x7F800000#32
  let main_v1 : FVec F S64x3x224x224 .f32 := broadcastInDim S64x3x224x224 ![] bcast_S_S64x3x224x224 main_cst
  let main_v2 : IVec S64x3x224x224 1 := cmpf .olt main_v0 main_v1
  let main_c : IVec S_ 1 := constantI S_ 1 1#1
  let main_v3 : IVec S_ 1 := (fun x v => Host.reduce IntOp.andi x v reducesTo_S64x3x224x224_S_d0_1_2_3 h_S_) main_v2 main_c
  let main_c_0 : IVec S_ 32 := constantI S_ 32 0#32
  let main_v4 : IVec S64x8x2 32 := broadcastInDim S64x8x2 ![] bcast_S_S64x8x2 main_c_0
  let main_v5 : IVec S64x8x2 1 := cmpi .sge main_arg1 main_v4
  let main_c_1 : IVec S_ 1 := constantI S_ 1 1#1
  let main_v6 : IVec S_ 1 := (fun x v => Host.reduce IntOp.andi x v reducesTo_S64x8x2_S_d0_1_2 h_S_) main_v5 main_c_1
  let main_v7 : IVec S_ 1 := andi main_v3 main_v6
  let main_c_2 : IVec S_ 32 := constantI S_ 32 32#32
  let main_v8 : IVec S64x8x2 32 := broadcastInDim S64x8x2 ![] bcast_S_S64x8x2 main_c_2
  let main_v9 : IVec S64x8x2 1 := cmpi .sle main_arg1 main_v8
  let main_c_3 : IVec S_ 1 := constantI S_ 1 1#1
  let main_v10 : IVec S_ 1 := (fun x v => Host.reduce IntOp.andi x v reducesTo_S64x8x2_S_d0_1_2 h_S_) main_v9 main_c_3
  let main_v11 : IVec S_ 1 := andi main_v7 main_v10
  main_v11
-- ==== Kernel.lean ====
abbrev S64x3x224x224 : Shape := ⟨4, ![64, 3, 224, 224]⟩
abbrev S64x8x2 : Shape := ⟨3, ![64, 8, 2]⟩
abbrev S512x3x192x192 : Shape := ⟨4, ![512, 3, 192, 192]⟩
abbrev S1x3x224x224 : Shape := ⟨4, ![1, 3, 224, 224]⟩
abbrev S1x3x192x192 : Shape := ⟨4, ![1, 3, 192, 192]⟩
abbrev S1x1x1 : Shape := ⟨3, ![1, 1, 1]⟩
abbrev S192x224 : Shape := ⟨2, ![192, 224]⟩
abbrev S224x192 : Shape := ⟨2, ![224, 192]⟩
abbrev S1x1x224x224 : Shape := ⟨4, ![1, 1, 224, 224]⟩
abbrev S224x224 : Shape := ⟨2, ![224, 224]⟩
abbrev S192x192 : Shape := ⟨2, ![192, 192]⟩
abbrev S1x1x192x192 : Shape := ⟨4, ![1, 1, 192, 192]⟩

abbrev nBuf : Space → Nat
  | .hbm => 2
  | .vmem => 4
  | .smem => 1
  | _ => 0

abbrev bufTy : (tb : Table) → Fin (tcTables nBuf tb) → BufTy
  | .hbm, ⟨0, _⟩ => ⟨S64x3x224x224, .f32⟩
  | .hbm, ⟨1, _⟩ => ⟨S512x3x192x192, .f32⟩
  | .local _ .vmem, ⟨0, _⟩ => ⟨S1x3x224x224, .f32⟩
  | .local _ .vmem, ⟨1, _⟩ => ⟨S1x3x224x224, .f32⟩
  | .local _ .vmem, ⟨2, _⟩ => ⟨S1x3x192x192, .f32⟩
  | .local _ .vmem, ⟨3, _⟩ => ⟨S1x3x192x192, .f32⟩
  | .local _ .smem, ⟨0, _⟩ => ⟨S64x8x2, .i32⟩
  | _, _ => ⟨S64x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![64, 8], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 3 → Nat :=
  let arg0 : BitVec 32 := BitVec.ofNat 32 (i 0).val
  let v0 : Index := Scalar.indexCast arg0
  let arg1 : BitVec 32 := BitVec.ofNat 32 (i 1).val
  let v1 : Index := Scalar.indexCast arg1
  let c0 : Index := 0#32
  ![v0.toNat, v1.toNat, 0]
def k0_off2 (i : grid0.Coords) : Fin 3 → Nat :=
  let arg0 : BitVec 32 := BitVec.ofNat 32 (i 0).val
  let v3 : Index := Scalar.indexCast arg0
  let arg1 : BitVec 32 := BitVec.ofNat 32 (i 1).val
  let v4 : Index := Scalar.indexCast arg1
  let c1 : Index := 1#32
  ![v3.toNat, v4.toNat, 1]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

abbrev stage0_0 : Fin 2 → Memref sig .tc .vmem S1x3x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x192x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  numel1_S1x1x1 : S1x1x1.numel = 1
  iota_S192x224_d1_w32 : S192x224.Iotas .tc 32 [1]
  iota_S192x224_d0_w32 : S192x224.Iotas .tc 32 [0]
  natLt_1_32 : 1 < 32
  bitsLt_bf16_f32 : FTy.bits .bf16 < FTy.bits .f32
  iota_S224x192_d0_w32 : S224x192.Iotas .tc 32 [0]
  iota_S224x192_d1_w32 : S224x192.Iotas .tc 32 [1]
  inb_S1x3x224x224_S1x1x224x224_0_0_0_0 : ∀ a, (![0, 0, 0, 0] : Fin 4 → Nat) a + S1x1x224x224.size a ≤ S1x3x224x224.size a
  h_S1x1x224x224 : 0 < S1x1x224x224.numel
  shapeCasts_S1x1x224x224_S224x224 : S1x1x224x224.ShapeCasts S224x224
  inb_S1x3x192x192_S1x1x192x192_0_0_0_0 : ∀ a, (![0, 0, 0, 0] : Fin 4 → Nat) a + S1x1x192x192.size a ≤ S1x3x192x192.size a
  h_S1x1x192x192 : 0 < S1x1x192x192.numel
  shapeCasts_S1x1x192x192_S192x192 : S1x1x192x192.ShapeCasts S192x192
  shapeCasts_S192x192_S1x1x192x192 : S192x192.ShapeCasts S1x1x192x192
  inb_S1x3x224x224_S1x1x224x224_0_1_0_0 : ∀ a, (![0, 1, 0, 0] : Fin 4 → Nat) a + S1x1x224x224.size a ≤ S1x3x224x224.size a
  inb_S1x3x192x192_S1x1x192x192_0_1_0_0 : ∀ a, (![0, 1, 0, 0] : Fin 4 → Nat) a + S1x1x192x192.size a ≤ S1x3x192x192.size a
  inb_S1x3x224x224_S1x1x224x224_0_2_0_0 : ∀ a, (![0, 2, 0, 0] : Fin 4 → Nat) a + S1x1x224x224.size a ≤ S1x3x224x224.size a
  inb_S1x3x192x192_S1x1x192x192_0_2_0_0 : ∀ a, (![0, 2, 0, 0] : Fin 4 → Nat) a + S1x1x192x192.size a ≤ S1x3x192x192.size a
  dot_S192x224_S224x224_S192x224_1_0_0_1_n_n_wf : DotDims.WF S192x224 S224x224 S192x224 [1] [0] [0] [1] [] []
  dot_S192x224_S224x192_S192x192_1_0_0_1_n_n_wf : DotDims.WF S192x224 S224x192 S192x192 [1] [0] [0] [1] [] []
  hrank0 : 0 < grid0.rank
  k0_off1_inb : ∀ i : grid0.Coords, ∀ a, (k0_off1 i) a + S1x1x1.size a ≤ S64x8x2.size a
  k0_off2_inb : ∀ i : grid0.Coords, ∀ a, (k0_off2 i) a + S1x1x1.size a ≤ S64x8x2.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x224x224.size a ≤ S64x3x224x224.size a
  hwx0_0 : ∀ i : grid0.Coords, EltTy.bits .f32 = 32 ∨ (Rect.block (s := S64x3x224x224) S1x3x224x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x192x192.size a ≤ S512x3x192x192.size a
  hwx0_1 : ∀ i : grid0.Coords, EltTy.bits .f32 = 32 ∨ (Rect.block (s := S512x3x192x192) S1x3x192x192.size (cc0_transform_1 i) (hinb0_1 i)).WholeWords (EltTy.packing .f32)

variable [Facts₀]

def dot_S192x224_S224x224_S192x224_1_0_0_1_n_n : DotDims S192x224 S224x224 S192x224 where
  lhsContracting := [1]
  rhsContracting := [0]
  lhsNonContracting := [0]
  rhsNonContracting := [1]
  lhsBatch := []
  rhsBatch := []
  wf := dot_S192x224_S224x224_S192x224_1_0_0_1_n_n_wf
def dot_S192x224_S224x192_S192x192_1_0_0_1_n_n : DotDims S192x224 S224x192 S192x192 where
  lhsContracting := [1]
  rhsContracting := [0]
  lhsNonContracting := [0]
  rhsNonContracting := [1]
  lhsBatch := []
  rhsBatch := []
  wf := dot_S192x224_S224x192_S192x192_1_0_0_1_n_n_wf

abbrev spec0_0 : Pipeline.WinSpec sig grid0.rank :=
  Pipeline.WinSpec.ofSpec (Memref.whole main_arg0) S1x3x224x224.size reads0_0 false false 2 stage0_0 sem0_0 nbuf0_0 hstage0_0

abbrev spec0_1 : Pipeline.WinSpec sig grid0.rank :=
  Pipeline.WinSpec.ofSpec (Memref.whole main_v0) S1x3x192x192.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S64x3x224x224 : Shape := ⟨4, ![64, 3, 224, 224]⟩
abbrev S64x8x2 : Shape := ⟨3, ![64, 8, 2]⟩
abbrev S64x8x1 : Shape := ⟨3, ![64, 8, 1]⟩
abbrev S64x8 : Shape := ⟨2, ![64, 8]⟩
abbrev S192 : Shape := ⟨1, ![192]⟩
abbrev S1x1x192 : Shape := ⟨3, ![1, 1, 192]⟩
abbrev S64x8x192 : Shape := ⟨3, ![64, 8, 192]⟩
abbrev S64x8x192x1 : Shape := ⟨4, ![64, 8, 192, 1]⟩
abbrev S_ : Shape := ⟨0, ![]⟩
abbrev S64x8x1x192 : Shape := ⟨4, ![64, 8, 1, 192]⟩
abbrev S64x8x192x192 : Shape := ⟨4, ![64, 8, 192, 192]⟩
abbrev S64x8x36864 : Shape := ⟨3, ![64, 8, 36864]⟩
abbrev S64x3x50176 : Shape := ⟨3, ![64, 3, 50176]⟩
abbrev S64x8x36864x1 : Shape := ⟨4, ![64, 8, 36864, 1]⟩
abbrev S64x8x3x36864 : Shape := ⟨4, ![64, 8, 3, 36864]⟩
abbrev S512x3x192x192 : Shape := ⟨4, ![512, 3, 192, 192]⟩

abbrev nBuf : Space → Nat
  | .hbm => 38
  | .vmem => 0
  | .smem => 0
  | _ => 0

abbrev bufTy : (tb : Table) → Fin (tcTables nBuf tb) → BufTy
  | .hbm, ⟨0, _⟩ => ⟨S64x3x224x224, .f32⟩
  | .hbm, ⟨1, _⟩ => ⟨S64x8x2, .i32⟩
  | .hbm, ⟨2, _⟩ => ⟨S64x8x1, .i32⟩
  | .hbm, ⟨3, _⟩ => ⟨S64x8, .i32⟩
  | .hbm, ⟨4, _⟩ => ⟨S64x8x1, .i32⟩
  | .hbm, ⟨5, _⟩ => ⟨S192, .i32⟩
  | .hbm, ⟨6, _⟩ => ⟨S1x1x192, .i32⟩
  | .hbm, ⟨7, _⟩ => ⟨S64x8x192, .i32⟩
  | .hbm, ⟨8, _⟩ => ⟨S64x8x192, .i32⟩
  | .hbm, ⟨9, _⟩ => ⟨S64x8x192, .i32⟩
  | .hbm, ⟨10, _⟩ => ⟨S64x8x1, .i32⟩
  | .hbm, ⟨11, _⟩ => ⟨S64x8, .i32⟩
  | .hbm, ⟨12, _⟩ => ⟨S64x8x1, .i32⟩
  | .hbm, ⟨13, _⟩ => ⟨S192, .i32⟩
  | .hbm, ⟨14, _⟩ => ⟨S1x1x192, .i32⟩
  | .hbm, ⟨15, _⟩ => ⟨S64x8x192, .i32⟩
  | .hbm, ⟨16, _⟩ => ⟨S64x8x192, .i32⟩
  | .hbm, ⟨17, _⟩ => ⟨S64x8x192, .i32⟩
  | .hbm, ⟨18, _⟩ => ⟨S64x8x192x1, .i32⟩
  | .hbm, ⟨19, _⟩ => ⟨S_, .i32⟩
  | .hbm, ⟨20, _⟩ => ⟨S64x8x192x1, .i32⟩
  | .hbm, ⟨21, _⟩ => ⟨S64x8x192x1, .i32⟩
  | .hbm, ⟨22, _⟩ => ⟨S64x8x1x192, .i32⟩
  | .hbm, ⟨23, _⟩ => ⟨S64x8x192x192, .i32⟩
  | .hbm, ⟨24, _⟩ => ⟨S64x8x192x192, .i32⟩
  | .hbm, ⟨25, _⟩ => ⟨S64x8x192x192, .i32⟩
  | .hbm, ⟨26, _⟩ => ⟨S64x8x36864, .i32⟩
  | .hbm, ⟨27, _⟩ => ⟨S64x3x50176, .f32⟩
  | .hbm, ⟨28, _⟩ => ⟨S_, .i32⟩
  | .hbm, ⟨29, _⟩ => ⟨S64x8x36864, .i32⟩
  | .hbm, ⟨30, _⟩ => ⟨S64x8x36864, .i1⟩
  | .hbm, ⟨31, _⟩ => ⟨S_, .i32⟩
  | .hbm, ⟨32, _⟩ => ⟨S64x8x36864, .i32⟩
  | .hbm, ⟨33, _⟩ => ⟨S64x8x36864, .i32⟩
  | .hbm, ⟨34, _⟩ => ⟨S64x8x36864, .i32⟩
  | .hbm, ⟨35, _⟩ => ⟨S64x8x36864x1, .i32⟩
  | .hbm, ⟨36, _⟩ => ⟨S64x8x3x36864, .f32⟩
  | .hbm, ⟨37, _⟩ => ⟨S512x3x192x192, .f32⟩
  | _, _ => ⟨S64x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_c_0 : Ref sig .tc := ⟨.hbm, 28, rfl⟩
abbrev main_v25 : Ref sig .tc := ⟨.hbm, 29, rfl⟩
abbrev main_v26 : Ref sig .tc := ⟨.hbm, 30, rfl⟩
abbrev main_c_1 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩

abbrev nD : Nat := 1
abbrev τ : Topo := Topo.v7x

variable {F : FTy → Type} [FloatOps F]

class Facts₀ : Prop where
  slices_S64x8x2_S64x8x1_0_0_0 : S64x8x2.Slices ![0, 0, 0] S64x8x1
  shapeCasts_S64x8x1_S64x8 : S64x8x1.ShapeCasts S64x8
  bcast_S64x8_S64x8x1_0_1 : S64x8.BroadcastsInDim S64x8x1 (![0, 1] : Fin 2 → Fin S64x8x1.rank)
  bcast_S192_S1x1x192_2 : S192.BroadcastsInDim S1x1x192 (![2] : Fin 1 → Fin S1x1x192.rank)
  bcast_S64x8x1_S64x8x192_0_1_2 : S64x8x1.BroadcastsInDim S64x8x192 (![0, 1, 2] : Fin 3 → Fin S64x8x192.rank)
  bcast_S1x1x192_S64x8x192_0_1_2 : S1x1x192.BroadcastsInDim S64x8x192 (![0, 1, 2] : Fin 3 → Fin S64x8x192.rank)
  slices_S64x8x2_S64x8x1_0_0_1 : S64x8x2.Slices ![0, 0, 1] S64x8x1
  bcast_S64x8x192_S64x8x192x1_0_1_2 : S64x8x192.BroadcastsInDim S64x8x192x1 (![0, 1, 2] : Fin 3 → Fin S64x8x192x1.rank)
  bcast_S_S64x8x192x1 : S_.BroadcastsInDim S64x8x192x1 (![] : Fin 0 → Fin S64x8x192x1.rank)
  bcast_S64x8x192_S64x8x1x192_0_1_3 : S64x8x192.BroadcastsInDim S64x8x1x192 (![0, 1, 3] : Fin 3 → Fin S64x8x1x192.rank)
  bcast_S64x8x192x1_S64x8x192x192_0_1_2_3 : S64x8x192x1.BroadcastsInDim S64x8x192x192 (![0, 1, 2, 3] : Fin 4 → Fin S64x8x192x192.rank)
  bcast_S64x8x1x192_S64x8x192x192_0_1_2_3 : S64x8x1x192.BroadcastsInDim S64x8x192x192 (![0, 1, 2, 3] : Fin 4 → Fin S64x8x192x192.rank)
  shapeCasts_S64x8x192x192_S64x8x36864 : S64x8x192x192.ShapeCasts S64x8x36864
  shapeCasts_S64x3x224x224_S64x3x50176 : S64x3x224x224.ShapeCasts S64x3x50176
  bcast_S_S64x8x36864 : S_.BroadcastsInDim S64x8x36864 (![] : Fin 0 → Fin S64x8x36864.rank)
  bcast_S64x8x36864_S64x8x36864x1_0_1_2 : S64x8x36864.BroadcastsInDim S64x8x36864x1 (![0, 1, 2] : Fin 3 → Fin S64x8x36864x1.rank)
  shapeCasts_S64x8x3x36864_S512x3x192x192 : S64x8x3x36864.ShapeCasts S512x3x192x192
  gather_S64x3x50176_S64x8x36864x1_S64x8x3x36864_2_2_0_0_2_3_131_wf : GatherDims.WF S64x3x50176 S64x8x36864x1 S64x8x3x36864 [2] [2] [0] [2] [0] 3 ![1, 3, 1]

variable [Facts₀]

def gather_S64x3x50176_S64x8x36864x1_S64x8x3x36864_2_2_0_0_2_3_131 : GatherDims S64x3x50176 S64x8x36864x1 S64x8x3x36864 where
  offsetDims := [2]
  collapsedSliceDims := [2]
  operandBatchingDims := [0]
  startIndicesBatchingDims := [0]
  startIndexMap := [2]
  indexVectorDim := 3
  sliceSizes := ![1, 3, 1]
  wf := gather_S64x3x50176_S64x8x36864x1_S64x8x3x36864_2_2_0_0_2_3_131_wf

class Facts : Prop extends Facts₀ where

variable [Facts]
-- ==== Proof.Spec.lean ====
/-
  The mathematics of the crop. An image batch `img : [64, 3, 224, 224]` and a table of top-left corners
  `ci : [64, 8, 2]` (row offset, column offset of crop `n` of image `b`) give the batch of crops
  `[512, 3, 192, 192]`: crop `8·b + n`, channel `ch`, pixel `(p, q)` is the image's pixel
  `(r + p, c + q)` of channel `ch`, where `(r, c) = ci[b, n]`. The offsets are read as natural numbers;
  a crop lies inside its image exactly when both are at most `224 − 192 = 32` (`InRange`). Row and column are
  taken modulo 224 so that the function is total; under `InRange` the reduction never acts.
-/
import Idealize.ShloMosaic.PureOps.Ideal
import Idealize.ShloMosaic.Lib.ValueIdx

namespace Cert.Crop

open Idealize.ShloMosaic Idealize.ShloMosaic.ValueIdx

/-- The offset of crop `n` of image `b` along axis `k` (0: rows, 1: columns), as a natural number. -/
def off (ci : IVec ⟨3, ![64, 8, 2]⟩ 32) (b : Fin 64) (n : Fin 8) (k : Fin 2) : ℕ := (ci (ix3 b n k)).toNat

/-- Every crop lies inside its image: each offset is between 0 and 32. -/
def InRange (ci : IVec ⟨3, ![64, 8, 2]⟩ 32) : Prop := ∀ b n k, off ci b n k ≤ 32

/-- The `192 × 192` window of one `224 × 224` channel whose top-left corner is `(r, c)`. -/
def window {α : Type} (r c : ℕ) (v : (⟨4, ![1, 1, 224, 224]⟩ : Shape).Idx → α) : (⟨4, ![1, 1, 192, 192]⟩ : Shape).Idx → α :=
  fun y => v (ix4 0 0 ⟨(r + (y 2).val) % 224, Nat.mod_lt _ (by decide)⟩ ⟨(c + (y 3).val) % 224, Nat.mod_lt _ (by decide)⟩)

/-- Which image crop `t` is cut from, and which of that image's eight crops it is. -/
def imageOf (t : Fin 512) : Fin 64 := ⟨t.val / 8, by have := t.isLt; omega⟩
def cropOf (t : Fin 512) : Fin 8 := ⟨t.val % 8, Nat.mod_lt _ (by decide)⟩

/-- The batch of crops as one function of the image batch and the table of corners. -/
def crop {α : Type} (img : (⟨4, ![64, 3, 224, 224]⟩ : Shape).Idx → α) (ci : IVec ⟨3, ![64, 8, 2]⟩ 32) :
    (⟨4, ![512, 3, 192, 192]⟩ : Shape).Idx → α :=
  fun j => img (ix4 (imageOf (j 0)) (j 1)
    ⟨(off ci (imageOf (j 0)) (cropOf (j 0)) 0 + (j 2).val) % 224, Nat.mod_lt _ (by decide)⟩
    ⟨(off ci (imageOf (j 0)) (cropOf (j 0)) 1 + (j 3).val) % 224, Nat.mod_lt _ (by decide)⟩)

end Cert.Crop
-- ==== Proof.PreRange.lean ====
import proofs.«405093_j9062380994640_1_alg».proof.Pre_finite_inputs
import proofs.«405093_j9062380994640_1_alg».proof.Proof.Gen.Pre_finite_inputs
import proofs.«405093_j9062380994640_1_alg».proof.Proof.Spec
import Idealize.ShloMosaic.Lib.ReduceAll
import Idealize.ShloMosaic.Lib.StableHlo.Predicate

namespace Cert.Crop

open Idealize.ShloMosaic

/-- A 32-bit word that reads, signed, between 0 and 32 reads the same unsigned: it is at most 32. -/
private theorem toNat_le_of_toInt_range {x : BitVec 32} (h0 : 0 ≤ x.toInt) (h1 : x.toInt ≤ 32) : x.toNat ≤ 32 := by
  rw [BitVec.toInt_eq_toNat_cond] at h0 h1
  have := x.isLt
  split at h0 <;> omega

/-- If the precondition word is 1 then each of its three conjuncts is 1; the second and third are
    conjunctions over all entries of the offset table of the signed comparisons `0 ≤ a1 i` and
    `a1 i ≤ 32`, so every entry lies in `[0, 32]` read signed, hence also read unsigned. -/
theorem inRange_of_pre [Cert.Pre_finite_inputs.Facts] (a0 : FVec Ideal Cert.Pre_finite_inputs.S64x3x224x224 .f32)
    (a1 : IVec Cert.Pre_finite_inputs.S64x8x2 32)
    (h : Cert.Pre_finite_inputs.fn (F := Ideal) a0 a1 = fun _ => 1#1) : InRange a1 := by
  intro b n k
  -- the rank-0 shape has a single index
  haveI : Subsingleton Cert.Pre_finite_inputs.S_.Idx := ⟨fun _ _ => funext fun d => d.elim0⟩
  have h0 := congrFun h ValueIdx.ix0
  dsimp only [Cert.Pre_finite_inputs.fn] at h0
  obtain ⟨h12, h3⟩ := IntOp.andi_eq_one.1 h0
  obtain ⟨_, h2⟩ := IntOp.andi_eq_one.1 h12
  have e2 : IntOp.cmpi .sge (a1 (ValueIdx.ix3 b n k)) 0#32 = 1#1 :=
    Host.reduce_andi_all _ _ _ _ _ h2 (ValueIdx.ix3 b n k)
  have e3 : IntOp.cmpi .sle (a1 (ValueIdx.ix3 b n k)) 32#32 = 1#1 :=
    Host.reduce_andi_all _ _ _ _ _ h3 (ValueIdx.ix3 b n k)
  have g2 := IntOp.cmpi_sge.1 e2
  have g3 := IntOp.cmpi_sle.1 e3
  have z0 : (0#32 : BitVec 32).toInt = 0 := by decide
  have z32 : (32#32 : BitVec 32).toInt = 32 := by decide
  rw [z0] at g2
  rw [z32] at g3
  exact toNat_le_of_toInt_range g2 g3

end Cert.Crop
-- ==== Proof.RefValue.lean ====
/-
  The reference computes the crop. It forms `rows = ci[…, 0] + [0, 192)` and `cols = ci[…, 1] + [0, 192)`, the flat
  pixel index `lin = rows · 224 + cols` in 32-bit words, adds `50176` where `lin` is negative, gathers from the image
  flattened to `[64, 3, 50176]` (image by image, every channel, the start index clamped into `[0, 50175]`), and
  regroups `[64, 8, 3, 36864]` as `[512, 3, 192, 192]`. When every offset is at most `32`, `r + p` and `c + q` stay
  below `224`, so `lin = (r + p) · 224 + (c + q) < 50176` neither wraps, nor is negative, nor is clamped, and the
  element read is pixel `(r + p, c + q)` of channel `ch` of image `t / 8`: the crop.
-/
import proofs.«405093_j9062380994640_1_alg».proof.Proof.Gen.ReferenceIdeal.Read
import proofs.«405093_j9062380994640_1_alg».proof.Proof.Spec
import Idealize.ShloMosaic.Lib.ValueIdx
import Idealize.ShloMosaic.Lib.Pipeline.Value
import Idealize.ShloMosaic.Lib.StableHlo.Predicate

noncomputable section

namespace Cert.ReferenceIdeal.RefValue

open Idealize.ShloMosaic Cert.ReferenceIdeal Idealize.ShloMosaic.ValueIdx Cert.ReferenceIdeal.Read

local notation "G131" => gather_S64x3x50176_S64x8x36864x1_S64x8x3x36864_2_2_0_0_2_3_131

/-- The batched gather at result index `(b, n, ch, k)`: image `b`, channel `ch`, at the flat pixel the start
    index `idx[b, n, k, 0]` names, read signed and clamped into `[0, 50175]`. -/
theorem gather_apply {α : Type} (x : S64x3x50176.Idx → α) (idx : IVec S64x8x36864x1 32)
    (b : Fin 64) (n : Fin 8) (ch : Fin 3) (k : Fin 36864) :
    Host.gather G131 x idx (ix4 b n ch k)
      = x (ix3 b ch ⟨min (idx (ix4 b n k 0)).toInt.toNat 50175, by omega⟩) := by
  unfold Host.gather
  congr 1
  funext a
  refine Fin.ext ?_
  match a with
  | ⟨0, _⟩ =>
    -- the batching axis: no start, no offset, the image coordinate of the result
    show GatherDims.start G131 (ix4 b n ch k) idx 0 + GatherDims.batchCoord G131 (ix4 b n ch k) 0
      + GatherDims.offCoord G131 (ix4 b n ch k) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ GatherDims.operandBatchingDims G131 from List.mem_singleton.mpr rfl)]
    rfl
  | ⟨1, _⟩ =>
    -- the offset axis: the channel coordinate of the result
    show GatherDims.start G131 (ix4 b n ch k) idx 1 + GatherDims.batchCoord G131 (ix4 b n ch k) 1
      + GatherDims.offCoord G131 (ix4 b n ch k) 1 = ch.val
    rw [GatherDims.batchCoord_eq_zero _ _ _ (by decide)]
    unfold GatherDims.start
    rw [dif_neg (show ¬ (1 : Fin 3) ∈ GatherDims.startIndexMap G131 by decide)]
    simp only [Nat.zero_add, Nat.add_zero]
    unfold GatherDims.offCoord
    rw [dif_pos (show (1 : Fin 3) ∈ GatherDims.sKept G131 from (GatherDims.mem_sKept _ _).mpr ⟨by decide, by decide⟩)]
    rfl
  | ⟨2, _⟩ =>
    -- the collapsed axis: the clamped start index alone
    show GatherDims.start G131 (ix4 b n ch k) idx 2 + GatherDims.batchCoord G131 (ix4 b n ch k) 2
      + GatherDims.offCoord G131 (ix4 b n ch k) 2 = min (idx (ix4 b n k 0)).toInt.toNat 50175
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ GatherDims.startIndexMap G131 from List.mem_singleton.mpr rfl)]
    have hsi : GatherDims.siIdx G131 (ix4 b n ch k)
        ⟨List.idxOf (2 : Fin 3) (GatherDims.startIndexMap G131),
          List.idxOf_lt_length_iff.2 (List.mem_singleton.mpr rfl)⟩ = ix4 b n k 0 := by
      funext c; refine Fin.ext ?_
      match c with
      | ⟨0, _⟩ => rfl
      | ⟨1, _⟩ => rfl
      | ⟨2, _⟩ => rfl
      | ⟨3, _⟩ => rfl
    rw [hsi]
    rfl

section Stages

variable {F : FTy → Type} [FloatOps F]

/-- `rows[b, n, p] = ci[b, n, 0] + p`, as 32-bit words. -/
theorem rows_apply (x1 : (⟨S64x8x2, .i32⟩ : BufTy).Contents (Elt F)) (b : Fin 64) (n : Fin 8) (p : Fin 192) :
    val_main_v7 (F := F) x1 (ix3 b n p) = IntOp.addi (x1 (ix3 b n 0)) (BitVec.ofNat 32 p.val) := by
  rw [val_main_v7_apply, val_main_v5_apply, val_main_v2_apply, val_main_v1_apply, val_main_v0_apply,
    val_main_v6_apply, val_main_v4_apply, val_main_v3_apply]
  have h1 : idx_main_v0 (idx_main_v1 (idx_main_v2 (idx_main_v5 (ix3 b n p)))) = ix3 b n 0 := by
    funext a; refine Fin.ext ?_
    have hb := b.isLt; have hn := n.isLt
    match a with
    | ⟨0, _⟩ => show (b.val * 8 + n.val) / 8 = b.val; omega
    | ⟨1, _⟩ => show (b.val * 8 + n.val) / 1 % 8 = n.val; omega
    | ⟨2, _⟩ => rfl
  rw [h1]

/-- `cols[b, n, q] = ci[b, n, 1] + q`, as 32-bit words. -/
theorem cols_apply (x1 : (⟨S64x8x2, .i32⟩ : BufTy).Contents (Elt F)) (b : Fin 64) (n : Fin 8) (q : Fin 192) :
    val_main_v15 (F := F) x1 (ix3 b n q) = IntOp.addi (x1 (ix3 b n 1)) (BitVec.ofNat 32 q.val) := by
  rw [val_main_v15_apply, val_main_v13_apply, val_main_v10_apply, val_main_v9_apply, val_main_v8_apply,
    val_main_v14_apply, val_main_v12_apply, val_main_v11_apply]
  have h1 : idx_main_v8 (idx_main_v9 (idx_main_v10 (idx_main_v13 (ix3 b n q)))) = ix3 b n 1 := by
    funext a; refine Fin.ext ?_
    have hb := b.isLt; have hn := n.isLt
    match a with
    | ⟨0, _⟩ => show (b.val * 8 + n.val) / 8 = b.val; omega
    | ⟨1, _⟩ => show (b.val * 8 + n.val) / 1 % 8 = n.val; omega
    | ⟨2, _⟩ => rfl
  rw [h1]

/-- The flat pixel index `lin[b, n, 192 p + q] = rows[b, n, p] · 224 + cols[b, n, q]`, as 32-bit words. -/
theorem lin_apply (x1 : (⟨S64x8x2, .i32⟩ : BufTy).Contents (Elt F)) (b : Fin 64) (n : Fin 8) (p q : Fin 192) :
    val_main_v23 (F := F) x1 (ix3 b n ⟨p.val * 192 + q.val, by have := p.isLt; have := q.isLt; omega⟩)
      = IntOp.addi (IntOp.muli (IntOp.addi (x1 (ix3 b n 0)) (BitVec.ofNat 32 p.val)) 224#32)
          (IntOp.addi (x1 (ix3 b n 1)) (BitVec.ofNat 32 q.val)) := by
  rw [val_main_v23_apply]
  have h23 : idx_main_v23 (ix3 b n ⟨p.val * 192 + q.val, by have := p.isLt; have := q.isLt; omega⟩) = ix4 b n p q := by
    funext a; refine Fin.ext ?_
    have hb := b.isLt; have hn := n.isLt; have hp := p.isLt; have hq := q.isLt
    match a with
    | ⟨0, _⟩ => show ((b.val * 8 + n.val) * 36864 + (p.val * 192 + q.val)) / 294912 = b.val; omega
    | ⟨1, _⟩ => show ((b.val * 8 + n.val) * 36864 + (p.val * 192 + q.val)) / 36864 % 8 = n.val; omega
    | ⟨2, _⟩ => show ((b.val * 8 + n.val) * 36864 + (p.val * 192 + q.val)) / 192 % 192 = p.val; omega
    | ⟨3, _⟩ => show ((b.val * 8 + n.val) * 36864 + (p.val * 192 + q.val)) % 192 = q.val; omega
  rw [h23, val_main_v22_apply, val_main_v20_apply, val_main_v18_apply, val_main_v16_apply, val_main_v17_apply,
    val_main_c_apply, val_main_v21_apply, val_main_v19_apply]
  have h16 : idx_main_v16 (idx_main_v20 (ix4 b n p q)) = ix3 b n p := by
    funext a; match a with | ⟨0, _⟩ => rfl | ⟨1, _⟩ => rfl | ⟨2, _⟩ => rfl
  have h19 : idx_main_v19 (idx_main_v21 (ix4 b n p q)) = ix3 b n q := by
    funext a; match a with | ⟨0, _⟩ => rfl | ⟨1, _⟩ => rfl | ⟨2, _⟩ => rfl
  rw [h16, h19, rows_apply, cols_apply]

/-- With both offsets at most 32 and `p, q < 192` nothing wraps: the word is the number
    `(r + p) · 224 + (c + q)`. -/
theorem lin_toNat (r c : BitVec 32) (hr : r.toNat ≤ 32) (hc : c.toNat ≤ 32) (p q : ℕ) (hp : p < 192) (hq : q < 192) :
    (IntOp.addi (IntOp.muli (IntOp.addi r (BitVec.ofNat 32 p)) 224#32) (IntOp.addi c (BitVec.ofNat 32 q))).toNat
      = (r.toNat + p) * 224 + (c.toNat + q) := by
  simp only [IntOp.addi, IntOp.muli, BitVec.toNat_add, BitVec.toNat_mul, BitVec.toNat_ofNat, Nat.reducePow, Nat.reduceMod]
  omega

/-- A word below `2³¹` is not negative, so the wrap-around select keeps it. -/
theorem sel_apply (L : BitVec 32) (hL : L.toNat < 2 ^ 31) :
    Scalar.select (IntOp.cmpi .slt L 0#32) (IntOp.addi L 50176#32) L = L := by
  have hz : IntOp.cmpi .slt L 0#32 = 0#1 := eq_zero_of_ne_one (fun h1 => by
    have h2 := (StableHlo.Predicate.slt_iff_toNat hL (by decide)).mp h1
    simp at h2)
  rw [hz, select_zero]

/-- Under the range condition the start index the gather reads at `(b, n, 192 p + q)` is, read signed, the number
    `(r + p) · 224 + (c + q)` with `(r, c)` the corner of crop `n` of image `b`. -/
theorem start_toNat (x1 : (⟨S64x8x2, .i32⟩ : BufTy).Contents (Elt F)) (h : Cert.Crop.InRange x1)
    (b : Fin 64) (n : Fin 8) (p q : Fin 192) :
    (BitVec.toInt (val_main_v30 (F := F) x1
        (ix4 b n ⟨p.val * 192 + q.val, by have := p.isLt; have := q.isLt; omega⟩ 0))).toNat
      = (Cert.Crop.off x1 b n 0 + p.val) * 224 + (Cert.Crop.off x1 b n 1 + q.val) := by
  have hr : Cert.Crop.off x1 b n 0 ≤ 32 := h b n 0
  have hc : Cert.Crop.off x1 b n 1 ≤ 32 := h b n 1
  have hp := p.isLt
  have hq := q.isLt
  have hL : (IntOp.addi (IntOp.muli (IntOp.addi (x1 (ix3 b n 0)) (BitVec.ofNat 32 p.val)) 224#32)
      (IntOp.addi (x1 (ix3 b n 1)) (BitVec.ofNat 32 q.val))).toNat
      = (Cert.Crop.off x1 b n 0 + p.val) * 224 + (Cert.Crop.off x1 b n 1 + q.val) :=
    lin_toNat (x1 (ix3 b n 0)) (x1 (ix3 b n 1)) hr hc p.val q.val hp hq
  rw [val_main_v30_apply]
  have h30 : idx_main_v30 (ix4 b n (⟨p.val * 192 + q.val, by omega⟩ : Fin 36864) 0)
      = ix3 b n ⟨p.val * 192 + q.val, by omega⟩ := by
    funext a; match a with | ⟨0, _⟩ => rfl | ⟨1, _⟩ => rfl | ⟨2, _⟩ => rfl
  rw [h30, val_main_v29_apply, val_main_v26_apply, val_main_v28_apply, val_main_v25_apply, val_main_c_0_apply,
    val_main_v27_apply, val_main_c_1_apply, lin_apply, sel_apply _ (by omega),
    StableHlo.Predicate.toInt_eq_toNat_of_lt (by omega), Int.toNat_natCast, hL]

/-- The image flattened to `[64, 3, 50176]`, read at flat pixel `224 y + z`, is the image at `(y, z)`. -/
theorem flat_apply (x0 : (⟨S64x3x224x224, .f32⟩ : BufTy).Contents (Elt F)) (b : Fin 64) (ch : Fin 3)
    (m : Fin 50176) (y z : Fin 224) (hm : m.val = y.val * 224 + z.val) :
    val_main_v24 (F := F) x0 (ix3 b ch m) = x0 (ix4 b ch y z) := by
  rw [val_main_v24_apply]
  congr 1
  funext a; refine Fin.ext ?_
  have hb := b.isLt; have hch := ch.isLt; have hy := y.isLt; have hz := z.isLt
  match a with
  | ⟨0, _⟩ => show ((b.val * 3 + ch.val) * 50176 + m.val) / 150528 = b.val; omega
  | ⟨1, _⟩ => show ((b.val * 3 + ch.val) * 50176 + m.val) / 50176 % 3 = ch.val; omega
  | ⟨2, _⟩ => show ((b.val * 3 + ch.val) * 50176 + m.val) / 224 % 224 = y.val; omega
  | ⟨3, _⟩ => show ((b.val * 3 + ch.val) * 50176 + m.val) % 224 = z.val; omega

end Stages

/-- The reference's result is the crop of the image batch at the table of corners. -/
theorem ref_eq_crop {F : FTy → Type} [FloatOps F] (x0 : (⟨S64x3x224x224, .f32⟩ : BufTy).Contents (Elt F))
    (x1 : (⟨S64x8x2, .i32⟩ : BufTy).Contents (Elt F)) (h : Cert.Crop.InRange x1) :
    Cert.ReferenceIdeal.Read.val_main_v32 (F := F) x0 x1 = Cert.Crop.crop x0 x1 := by
  funext j
  obtain ⟨t, ch, p, q, rfl⟩ : ∃ (t : Fin 512) (ch : Fin 3) (p q : Fin 192), j = ix4 t ch p q :=
    ⟨j 0, j 1, j 2, j 3, eq_ix4 j⟩
  have hr : Cert.Crop.off x1 (Cert.Crop.imageOf t) (Cert.Crop.cropOf t) 0 ≤ 32 := h _ _ 0
  have hc : Cert.Crop.off x1 (Cert.Crop.imageOf t) (Cert.Crop.cropOf t) 1 ≤ 32 := h _ _ 1
  have ht := t.isLt; have hch := ch.isLt; have hp := p.isLt; have hq := q.isLt
  -- the right-hand side over the explicit coordinates
  show _ = x0 (ix4 (Cert.Crop.imageOf t) ch
    ⟨(Cert.Crop.off x1 (Cert.Crop.imageOf t) (Cert.Crop.cropOf t) 0 + p.val) % 224, _⟩
    ⟨(Cert.Crop.off x1 (Cert.Crop.imageOf t) (Cert.Crop.cropOf t) 1 + q.val) % 224, _⟩)
  -- the last reshape: crop `t = 8 b + n`, and the flat pixel `192 p + q`
  rw [val_main_v32_apply]
  have h32 : idx_main_v32 (ix4 t ch p q)
      = ix4 (Cert.Crop.imageOf t) (Cert.Crop.cropOf t) ch (⟨p.val * 192 + q.val, by omega⟩ : Fin 36864) := by
    funext a; refine Fin.ext ?_
    match a with
    | ⟨0, _⟩ => show (((t.val * 3 + ch.val) * 192 + p.val) * 192 + q.val) / 884736 = t.val / 8; omega
    | ⟨1, _⟩ => show (((t.val * 3 + ch.val) * 192 + p.val) * 192 + q.val) / 110592 % 8 = t.val % 8; omega
    | ⟨2, _⟩ => show (((t.val * 3 + ch.val) * 192 + p.val) * 192 + q.val) / 36864 % 3 = ch.val; omega
    | ⟨3, _⟩ => show (((t.val * 3 + ch.val) * 192 + p.val) * 192 + q.val) % 36864 = p.val * 192 + q.val; omega
  rw [h32]
  -- the gather, then the flattened image at the start index, which the range condition keeps unclamped
  show Host.gather G131 (val_main_v24 (F := F) x0) (val_main_v30 (F := F) x1) _ = _
  rw [gather_apply]
  refine flat_apply x0 _ _ _ _ _ ?_
  show min (BitVec.toInt _).toNat 50175 = (_ + p.val) % 224 * 224 + (_ + q.val) % 224
  rw [start_toNat x1 h]
  omega

end Cert.ReferenceIdeal.RefValue

end
-- ==== Proof.Payload.lean ====
/-
  The kernel's payloads are the crop's window. Per channel the body computes `(R · X) · S` at exact arithmetic, where
  `X` is the `224 × 224` channel, `R` is the `192 × 224` row selector (`R[i, h] = 1` when `h = r + i`, else `0`) and `S` is the
  `224 × 192` column selector (`S[w, j] = 1` when `w = c + j`, else `0`), `(r, c)` the crop's corner. With `r, c ≤ 32` the
  one matching `h = r + i` and `w = c + j` lie below `224`; every other term of either sum is `0 · x = 0` (true of every
  extended real, the infinite ones included, so no finiteness is asked of `X`) and the matching term is `1 · x = x`.
  Hence `((R · X) · S)[i, j] = X[r + i, c + j]`: the `192 × 192` window of `X` at `(r, c)`.
-/
import proofs.«405093_j9062380994640_1_alg».proof.Proof.Gen.KernelIdeal.Skeleton
import proofs.«405093_j9062380994640_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Payload

open Idealize.ShloMosaic Idealize.ShloMosaic.ValueIdx Cert.KernelIdeal Cert.KernelIdeal.Gen

/-! ## Words -/

/-- With `a ≤ 32` and `i < 224` the word `a + i` does not wrap: it is the word of `h < 224` exactly when
    `h = a + i` as natural numbers. -/
theorem word_eq_iff (a : BitVec 32) (ha : a.toNat ≤ 32) (i h : Nat) (hi : i < 224) (hh : h < 224) :
    BitVec.ofNat 32 h = a + BitVec.ofNat 32 i ↔ h = a.toNat + i := by
  rw [← BitVec.toNat_inj, BitVec.toNat_add, BitVec.toNat_ofNat, BitVec.toNat_ofNat]
  omega

/-- The entry of a one-hot matrix: the comparison bit, widened to a word, read as a signed integer and converted,
    is the extended real `1` where the words agree and `0` elsewhere. -/
theorem sitofp_cmpi_eq (x y : BitVec 32) :
    (FloatOps.sitofp (F := Ideal) .f32 ((IntOp.cmpi .eq x y).setWidth 32) : EReal) = if x = y then 1 else 0 := by
  show ((((BitVec.ofBool (x == y)).setWidth 32).toInt : ℝ) : EReal) = _
  by_cases h : x = y
  · have hb : (x == y) = true := by simp [h]
    rw [hb, if_pos h]
    have : ((BitVec.ofBool true).setWidth 32).toInt = 1 := by decide
    rw [this]; simp
  · have hb : (x == y) = false := by simp [h]
    rw [hb, if_neg h]
    have : ((BitVec.ofBool false).setWidth 32).toInt = 0 := by decide
    rw [this]; simp

/-! ## The two one-hot matrices -/

/-- The row selector `R`: entry `(i, h)` is `1` when `h = v2 + i` and `0` otherwise. -/
theorem pay3_apply (v2 : BitVec 32) (h2 : v2.toNat ≤ 32) (i : Fin 192) (h : Fin 224) :
    k0_pay3 (F := Ideal) v2 (ix2 i h) = if h.val = v2.toNat + i.val then (1 : EReal) else 0 := by
  have e : k0_pay3 (F := Ideal) v2 (ix2 i h)
      = FloatOps.sitofp (F := Ideal) .f32 ((IntOp.cmpi .eq (iota .tc S192x224 32 [1] iota_S192x224_d1_w32 (ix2 i h))
          (v2 + iota .tc S192x224 32 [0] iota_S192x224_d0_w32 (ix2 i h))).setWidth 32) := rfl
  rw [e, iota_single_apply, iota_single_apply, sitofp_cmpi_eq]
  show (if BitVec.ofNat 32 h.val = v2 + BitVec.ofNat 32 i.val then (1 : EReal) else 0) = _
  have hw := word_eq_iff v2 h2 i.val h.val (by omega) h.isLt
  by_cases hc : h.val = v2.toNat + i.val
  · rw [if_pos hc, if_pos (hw.mpr hc)]
  · rw [if_neg hc, if_neg (fun e => hc (hw.mp e))]

/-- The column selector `S`: entry `(w, j)` is `1` when `w = v5 + j` and `0` otherwise. -/
theorem pay4_apply (v5 : BitVec 32) (h5 : v5.toNat ≤ 32) (w : Fin 224) (j : Fin 192) :
    k0_pay4 (F := Ideal) v5 (ix2 w j) = if w.val = v5.toNat + j.val then (1 : EReal) else 0 := by
  have e : k0_pay4 (F := Ideal) v5 (ix2 w j)
      = FloatOps.sitofp (F := Ideal) .f32 ((IntOp.cmpi .eq (iota .tc S224x192 32 [0] iota_S224x192_d0_w32 (ix2 w j))
          (v5 + iota .tc S224x192 32 [1] iota_S224x192_d1_w32 (ix2 w j))).setWidth 32) := rfl
  rw [e, iota_single_apply, iota_single_apply, sitofp_cmpi_eq]
  show (if BitVec.ofNat 32 w.val = v5 + BitVec.ofNat 32 j.val then (1 : EReal) else 0) = _
  have hw := word_eq_iff v5 h5 j.val w.val (by omega) w.isLt
  by_cases hc : w.val = v5.toNat + j.val
  · rw [if_pos hc, if_pos (hw.mpr hc)]
  · rw [if_neg hc, if_neg (fun e => hc (hw.mp e))]

/-! ## The two products read at an index -/

/-- A sum against a one-hot row keeps the one matching term: the other products are `0 · x = 0` for every
    extended real `x`, infinite ones included. -/
theorem sum_onehot_mul {n : Nat} (a : Fin n) (f : Fin n → EReal) :
    ∑ k : Fin n, (if k.val = a.val then (1 : EReal) else 0) * f k = f a := by
  rw [Fintype.sum_eq_single a]
  · rw [if_pos rfl, one_mul]
  · intro x hx
    rw [if_neg (fun h => hx (Fin.ext h)), zero_mul]

/-- The same with the one-hot factor on the right. -/
theorem sum_mul_onehot {n : Nat} (a : Fin n) (f : Fin n → EReal) :
    ∑ k : Fin n, f k * (if k.val = a.val then (1 : EReal) else 0) = f a := by
  rw [Fintype.sum_eq_single a]
  · rw [if_pos rfl, mul_one]
  · intro x hx
    rw [if_neg (fun h => hx (Fin.ext h)), mul_zero]

/-- First product, left operand, row axis: the output's row. -/
theorem lhs1_0 (j : S192x224.Idx) (k : dot_S192x224_S224x224_S192x224_1_0_0_1_n_n.contr.Idx) :
    (dot_S192x224_S224x224_S192x224_1_0_0_1_n_n.lhsIdx j k 0).val = (j 0).val := by
  simp [DotDims.lhsIdx, dot_S192x224_S224x224_S192x224_1_0_0_1_n_n]
  rfl

/-- First product, left operand, column axis: the contraction coordinate. -/
theorem lhs1_1 (j : S192x224.Idx) (k : dot_S192x224_S224x224_S192x224_1_0_0_1_n_n.contr.Idx) :
    (dot_S192x224_S224x224_S192x224_1_0_0_1_n_n.lhsIdx j k 1).val = (k ⟨0, by decide⟩).val :=
  dot_S192x224_S224x224_S192x224_1_0_0_1_n_n.lhsIdx_val_of_single (cl := 1) rfl j k

/-- First product, right operand, row axis: the contraction coordinate. -/
theorem rhs1_0 (j : S192x224.Idx) (k : dot_S192x224_S224x224_S192x224_1_0_0_1_n_n.contr.Idx) :
    (dot_S192x224_S224x224_S192x224_1_0_0_1_n_n.rhsIdx j k 0).val = (k ⟨0, by decide⟩).val :=
  dot_S192x224_S224x224_S192x224_1_0_0_1_n_n.rhsIdx_val_of_single (cr := 0) rfl j k

/-- First product, right operand, column axis: the output's column. -/
theorem rhs1_1 (j : S192x224.Idx) (k : dot_S192x224_S224x224_S192x224_1_0_0_1_n_n.contr.Idx) :
    (dot_S192x224_S224x224_S192x224_1_0_0_1_n_n.rhsIdx j k 1).val = (j 1).val := by
  simp [DotDims.rhsIdx, dot_S192x224_S224x224_S192x224_1_0_0_1_n_n]
  rfl

/-- The first product read at `(i, w)`: the sum over the contracted coordinate of the entries' products. -/
theorem matmul1_apply (A : FVec Ideal S192x224 .bf16) (B : FVec Ideal S224x224 .bf16) (i : Fin 192) (w : Fin 224) :
    matmul dot_S192x224_S224x224_S192x224_1_0_0_1_n_n none A B (constant (F := Ideal) S192x224 .f32 0x00000000#32) (ix2 i w)
      = ∑ k : Fin 224, A (ix2 i k) * B (ix2 k w) := by
  show FloatOps.matmul dot_S192x224_S224x224_S192x224_1_0_0_1_n_n none A B (constant (F := Ideal) S192x224 .f32 0x00000000#32) (ix2 i w) = _
  rw [Ideal.matmul_constant_zero_apply,
    ← Equiv.sum_comp (contrEquiv1 dot_S192x224_S224x224_S192x224_1_0_0_1_n_n 224 rfl rfl).symm]
  refine Finset.sum_congr rfl fun c _ => ?_
  have hc := contrEquiv1_symm_val dot_S192x224_S224x224_S192x224_1_0_0_1_n_n 224 rfl rfl c
  have hl : dot_S192x224_S224x224_S192x224_1_0_0_1_n_n.lhsIdx (ix2 i w)
      ((contrEquiv1 dot_S192x224_S224x224_S192x224_1_0_0_1_n_n 224 rfl rfl).symm c) = ix2 i c := by
    funext ax; apply Fin.ext
    match ax with
    | ⟨0, _⟩ => exact lhs1_0 _ _
    | ⟨1, _⟩ => exact (lhs1_1 _ _).trans hc
  have hr : dot_S192x224_S224x224_S192x224_1_0_0_1_n_n.rhsIdx (ix2 i w)
      ((contrEquiv1 dot_S192x224_S224x224_S192x224_1_0_0_1_n_n 224 rfl rfl).symm c) = ix2 c w := by
    funext ax; apply Fin.ext
    match ax with
    | ⟨0, _⟩ => exact (rhs1_0 _ _).trans hc
    | ⟨1, _⟩ => exact rhs1_1 _ _
  rw [hl, hr]

/-- Second product, left operand, row axis: the output's row. -/
theorem lhs2_0 (j : S192x192.Idx) (k : dot_S192x224_S224x192_S192x192_1_0_0_1_n_n.contr.Idx) :
    (dot_S192x224_S224x192_S192x192_1_0_0_1_n_n.lhsIdx j k 0).val = (j 0).val := by
  simp [DotDims.lhsIdx, dot_S192x224_S224x192_S192x192_1_0_0_1_n_n]
  rfl

/-- Second product, left operand, column axis: the contraction coordinate. -/
theorem lhs2_1 (j : S192x192.Idx) (k : dot_S192x224_S224x192_S192x192_1_0_0_1_n_n.contr.Idx) :
    (dot_S192x224_S224x192_S192x192_1_0_0_1_n_n.lhsIdx j k 1).val = (k ⟨0, by decide⟩).val :=
  dot_S192x224_S224x192_S192x192_1_0_0_1_n_n.lhsIdx_val_of_single (cl := 1) rfl j k

/-- Second product, right operand, row axis: the contraction coordinate. -/
theorem rhs2_0 (j : S192x192.Idx) (k : dot_S192x224_S224x192_S192x192_1_0_0_1_n_n.contr.Idx) :
    (dot_S192x224_S224x192_S192x192_1_0_0_1_n_n.rhsIdx j k 0).val = (k ⟨0, by decide⟩).val :=
  dot_S192x224_S224x192_S192x192_1_0_0_1_n_n.rhsIdx_val_of_single (cr := 0) rfl j k

/-- Second product, right operand, column axis: the output's column. -/
theorem rhs2_1 (j : S192x192.Idx) (k : dot_S192x224_S224x192_S192x192_1_0_0_1_n_n.contr.Idx) :
    (dot_S192x224_S224x192_S192x192_1_0_0_1_n_n.rhsIdx j k 1).val = (j 1).val := by
  simp [DotDims.rhsIdx, dot_S192x224_S224x192_S192x192_1_0_0_1_n_n]
  rfl

/-- The second product read at `(i, j)`: the sum over the contracted coordinate of the entries' products. -/
theorem matmul2_apply (A : FVec Ideal S192x224 .bf16) (B : FVec Ideal S224x192 .bf16) (i j : Fin 192) :
    matmul dot_S192x224_S224x192_S192x192_1_0_0_1_n_n none A B (constant (F := Ideal) S192x192 .f32 0x00000000#32) (ix2 i j)
      = ∑ k : Fin 224, A (ix2 i k) * B (ix2 k j) := by
  show FloatOps.matmul dot_S192x224_S224x192_S192x192_1_0_0_1_n_n none A B (constant (F := Ideal) S192x192 .f32 0x00000000#32) (ix2 i j) = _
  rw [Ideal.matmul_constant_zero_apply,
    ← Equiv.sum_comp (contrEquiv1 dot_S192x224_S224x192_S192x192_1_0_0_1_n_n 224 rfl rfl).symm]
  refine Finset.sum_congr rfl fun c _ => ?_
  have hc := contrEquiv1_symm_val dot_S192x224_S224x192_S192x192_1_0_0_1_n_n 224 rfl rfl c
  have hl : dot_S192x224_S224x192_S192x192_1_0_0_1_n_n.lhsIdx (ix2 i j)
      ((contrEquiv1 dot_S192x224_S224x192_S192x192_1_0_0_1_n_n 224 rfl rfl).symm c) = ix2 i c := by
    funext ax; apply Fin.ext
    match ax with
    | ⟨0, _⟩ => exact lhs2_0 _ _
    | ⟨1, _⟩ => exact (lhs2_1 _ _).trans hc
  have hr : dot_S192x224_S224x192_S192x192_1_0_0_1_n_n.rhsIdx (ix2 i j)
      ((contrEquiv1 dot_S192x224_S224x192_S192x192_1_0_0_1_n_n 224 rfl rfl).symm c) = ix2 c j := by
    funext ax; apply Fin.ext
    match ax with
    | ⟨0, _⟩ => exact (rhs2_0 _ _).trans hc
    | ⟨1, _⟩ => exact rhs2_1 _ _
  rw [hl, hr]

/-! ## The double product is the window -/

/-- The kernel body's arithmetic on one channel `X`: `(R · X) · S` at exact arithmetic, both products accumulated
    into zero, the format changes the identity. -/
def rxs (v2 v5 : BitVec 32) (X : FVec Ideal S224x224 .f32) : FVec Ideal S192x192 .f32 :=
  matmul dot_S192x224_S224x192_S192x192_1_0_0_1_n_n none
    (truncf .bf16
      (matmul dot_S192x224_S224x224_S192x224_1_0_0_1_n_n none (k0_pay3 (F := Ideal) v2) (truncf .bf16 X bitsLt_bf16_f32)
        (constant (F := Ideal) S192x224 .f32 0x00000000#32))
      bitsLt_bf16_f32)
    (k0_pay4 (F := Ideal) v5) (constant (F := Ideal) S192x192 .f32 0x00000000#32)

/-- `R · X` at `(i, w)` is row `v2 + i` of `X`. -/
theorem rx_apply (v2 : BitVec 32) (h2 : v2.toNat ≤ 32) (X : FVec Ideal S224x224 .f32) (i : Fin 192) (w : Fin 224) :
    matmul dot_S192x224_S224x224_S192x224_1_0_0_1_n_n none (k0_pay3 (F := Ideal) v2) (truncf .bf16 X bitsLt_bf16_f32)
        (constant (F := Ideal) S192x224 .f32 0x00000000#32) (ix2 i w)
      = X (ix2 (⟨v2.toNat + i.val, by omega⟩ : Fin 224) w) := by
  rw [matmul1_apply]
  have hs : ∀ k : Fin 224, k0_pay3 (F := Ideal) v2 (ix2 i k) * (truncf .bf16 X bitsLt_bf16_f32 : FVec Ideal S224x224 .bf16) (ix2 k w)
      = (if k.val = (⟨v2.toNat + i.val, by omega⟩ : Fin 224).val then (1 : EReal) else 0) * X (ix2 k w) := by
    intro k
    rw [pay3_apply v2 h2, truncf_apply]
  rw [Finset.sum_congr rfl fun k _ => hs k]
  exact sum_onehot_mul (⟨v2.toNat + i.val, by omega⟩ : Fin 224) fun k => X (ix2 k w)

/-- `(R · X) · S` at `(p, q)` is `X` at `(v2 + p, v5 + q)`. -/
theorem rxs_apply (v2 v5 : BitVec 32) (h2 : v2.toNat ≤ 32) (h5 : v5.toNat ≤ 32) (X : FVec Ideal S224x224 .f32) (p q : Fin 192) :
    rxs v2 v5 X (ix2 p q) = X (ix2 (⟨v2.toNat + p.val, by omega⟩ : Fin 224) (⟨v5.toNat + q.val, by omega⟩ : Fin 224)) := by
  unfold rxs
  rw [matmul2_apply]
  have hs : ∀ k : Fin 224,
      (truncf .bf16
          (matmul dot_S192x224_S224x224_S192x224_1_0_0_1_n_n none (k0_pay3 (F := Ideal) v2) (truncf .bf16 X bitsLt_bf16_f32)
            (constant (F := Ideal) S192x224 .f32 0x00000000#32))
          bitsLt_bf16_f32 : FVec Ideal S192x224 .bf16) (ix2 p k) * k0_pay4 (F := Ideal) v5 (ix2 k q)
        = X (ix2 (⟨v2.toNat + p.val, by omega⟩ : Fin 224) k)
            * (if k.val = (⟨v5.toNat + q.val, by omega⟩ : Fin 224).val then (1 : EReal) else 0) := by
    intro k
    rw [truncf_apply, rx_apply v2 h2, pay4_apply v5 h5]
  rw [Finset.sum_congr rfl fun k _ => hs k]
  exact sum_mul_onehot (⟨v5.toNat + q.val, by omega⟩ : Fin 224) fun k => X (ix2 (⟨v2.toNat + p.val, by omega⟩ : Fin 224) k)

/-- The channel reshaped to a matrix, multiplied by the two selectors, reshaped back: the window of the channel at
    `(v2, v5)`. Under the range hypotheses the window's reduction modulo 224 never acts. -/
theorem cast_rxs_cast (v2 v5 : BitVec 32) (h2 : v2.toNat ≤ 32) (h5 : v5.toNat ≤ 32) (v : Vec Ideal S1x1x224x224 .f32) :
    shapeCast S1x1x192x192 (rxs v2 v5 (shapeCast S224x224 v shapeCasts_S1x1x224x224_S224x224)) shapeCasts_S192x192_S1x1x192x192
      = Cert.Crop.window v2.toNat v5.toNat v := by
  funext y
  have hy0 : (y 0).val < 1 := (y 0).isLt
  have hy1 : (y 1).val < 1 := (y 1).isLt
  have hy2 : (y 2).val < 192 := (y 2).isLt
  have hy3 : (y 3).val < 192 := (y 3).isLt
  rw [shapeCast_apply _ shapeCasts_S192x192_S1x1x192x192 y (ix2 (⟨(y 2).val, hy2⟩ : Fin 192) (⟨(y 3).val, hy3⟩ : Fin 192))
    (by rw [Shape.rowMajor_val_two, Shape.rowMajor_val_four]
        show (y 2).val * 192 + (y 3).val = (((y 0).val * 1 + (y 1).val) * 192 + (y 2).val) * 192 + (y 3).val
        omega)]
  rw [rxs_apply v2 v5 h2 h5]
  rw [shapeCast_apply v shapeCasts_S1x1x224x224_S224x224 _
    (ix4 (0 : Fin 1) (0 : Fin 1) (⟨v2.toNat + (y 2).val, by omega⟩ : Fin 224) (⟨v5.toNat + (y 3).val, by omega⟩ : Fin 224))
    (by rw [Shape.rowMajor_val_four, Shape.rowMajor_val_two]
        show ((0 * 1 + 0) * 224 + (v2.toNat + (y 2).val)) * 224 + (v5.toNat + (y 3).val)
          = (v2.toNat + (y 2).val) * 224 + (v5.toNat + (y 3).val)
        omega)]
  unfold Cert.Crop.window
  congr 1
  funext a
  apply Fin.ext
  match a with
  | ⟨0, _⟩ => rfl
  | ⟨1, _⟩ => rfl
  | ⟨2, _⟩ =>
    show v2.toNat + (y 2).val = (v2.toNat + (y 2).val) % 224
    exact (Nat.mod_eq_of_lt (show v2.toNat + (y 2).val < 224 by omega)).symm
  | ⟨3, _⟩ =>
    show v5.toNat + (y 3).val = (v5.toNat + (y 3).val) % 224
    exact (Nat.mod_eq_of_lt (show v5.toNat + (y 3).val < 224 by omega)).symm

/-! ## The three payloads -/

theorem pay5_eq (v2 v5 : BitVec 32) (h2 : v2.toNat ≤ 32) (h5 : v5.toNat ≤ 32) (v : Vec Ideal S1x1x224x224 .f32) :
    k0_pay5 (F := Ideal) v2 v5 v = Cert.Crop.window v2.toNat v5.toNat v :=
  (rfl : k0_pay5 (F := Ideal) v2 v5 v = shapeCast S1x1x192x192 (rxs v2 v5 (shapeCast S224x224 v shapeCasts_S1x1x224x224_S224x224))
    shapeCasts_S192x192_S1x1x192x192).trans (cast_rxs_cast v2 v5 h2 h5 v)

theorem pay1_eq (v2 v5 : BitVec 32) (h2 : v2.toNat ≤ 32) (h5 : v5.toNat ≤ 32) (v : Vec Ideal S1x1x224x224 .f32) :
    k0_pay1 (F := Ideal) (k0_pay6 (F := Ideal) v2 v5 v) = Cert.Crop.window v2.toNat v5.toNat v :=
  (rfl : k0_pay1 (F := Ideal) (k0_pay6 (F := Ideal) v2 v5 v)
    = shapeCast S1x1x192x192 (rxs v2 v5 (shapeCast S224x224 v shapeCasts_S1x1x224x224_S224x224))
      shapeCasts_S192x192_S1x1x192x192).trans (cast_rxs_cast v2 v5 h2 h5 v)

theorem pay2_eq (v2 v5 : BitVec 32) (h2 : v2.toNat ≤ 32) (h5 : v5.toNat ≤ 32) (v : Vec Ideal S1x1x224x224 .f32) :
    k0_pay2 (F := Ideal) (k0_pay3 (F := Ideal) v2) (k0_pay4 (F := Ideal) v5) v = Cert.Crop.window v2.toNat v5.toNat v :=
  (rfl : k0_pay2 (F := Ideal) (k0_pay3 (F := Ideal) v2) (k0_pay4 (F := Ideal) v5) v
    = shapeCast S1x1x192x192 (rxs v2 v5 (shapeCast S224x224 v shapeCasts_S1x1x224x224_S224x224))
      shapeCasts_S192x192_S1x1x192x192).trans (cast_rxs_cast v2 v5 h2 h5 v)

end Cert.KernelIdeal.Payload

end
-- ==== Proof.KernelValue.lean ====
/-
  What the kernel's result array holds, at exact arithmetic. At grid point `t = 8 b + n` the body reads the table's two
  words `(r, c) = ci[b, n]`, and for each of the three channels stores `R · X · S` of the staged image block's channel `X`:
  by the payload lemmas that is the window of `X` at `(r, c)` when both offsets are at most 32. The three stores tile the
  `[1, 3, 192, 192]` output block, so the block is one function of its index (`blockWin`): channel `y 1`, row `r + y 2`,
  column `c + y 3` of the image block (`out_eq`). Point `t` stages image `t / 8` and writes back block `t` of the result,
  so what it writes is block `t` of the crop (`flushed_eq`); each index of the result lies in the block its leading
  coordinate names, the 512 blocks cover the array, and the array ends holding the crop (`final`, `run`).
-/
import proofs.«405093_j9062380994640_1_alg».proof.Proof.Gen.KernelIdeal.Frame
import proofs.«405093_j9062380994640_1_alg».proof.Proof.Payload
import proofs.«405093_j9062380994640_1_alg».proof.Proof.Spec
import Idealize.ShloMosaic.Lib.Pipeline.Value
import Idealize.ShloMosaic.Lib.WholeRead
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

/-- The windows of all three channels of one image block with top-left corner `(r, cc)`, as one function of the
    output block's index: channel `y 1`, row `r + y 2`, column `cc + y 3`. -/
def blockWin (r cc : ℕ) (x0 : Vec Ideal S1x3x224x224 .f32) : Vec Ideal S1x3x192x192 .f32 :=
  fun y => x0 (ix4 0 (y 1) ⟨(r + (y 2).val) % 224, Nat.mod_lt _ (by decide)⟩ ⟨(cc + (y 3).val) % 224, Nat.mod_lt _ (by decide)⟩)

/-- The corner of the crop made at grid point `i = (b, n)`: the table's words `[b, n, 0]` and `[b, n, 1]`. -/
def corner (tb : IVec S64x8x2 32) (i : grid0.Coords) (k : Fin 2) : BitVec 32 := tb (ix3 (i 0) (i 1) k)

theorem word0_eq (c : Dev nD) (i : grid0.Coords) (xt0 : TbBuf0 (F := Ideal) c tbM0_0) (hp : 0 < S1x1x1.numel) :
    View.readAt (Elt Ideal) tbM0_0.view (Rect.unit (s := S64x8x2) (k0_off1 i) S1x1x1.size (k0_off1_inb i)).toLoadRect xt0 (Shape.Idx.first hp)
      = corner xt0 i 0 := by
  rw [View.readAt_eq_ld]
  simp only [Memref.view_whole, View.read_whole]
  show xt0 _ = xt0 _
  congr 1
  funext a
  apply Fin.ext
  have e := k0_off1_eq i
  match a with
  | ⟨0, _⟩ => show k0_off1 i 0 + 1 * 0 = (i 0).val; rw [e]; rfl
  | ⟨1, _⟩ => show k0_off1 i 1 + 1 * 0 = (i 1).val; rw [e]; rfl
  | ⟨2, _⟩ => show k0_off1 i 2 + 1 * 0 = 0; rw [e]; rfl

theorem word1_eq (c : Dev nD) (i : grid0.Coords) (xt0 : TbBuf0 (F := Ideal) c tbM0_0) (hp : 0 < S1x1x1.numel) :
    View.readAt (Elt Ideal) tbM0_0.view (Rect.unit (s := S64x8x2) (k0_off2 i) S1x1x1.size (k0_off2_inb i)).toLoadRect xt0 (Shape.Idx.first hp)
      = corner xt0 i 1 := by
  rw [View.readAt_eq_ld]
  simp only [Memref.view_whole, View.read_whole]
  show xt0 _ = xt0 _
  congr 1
  funext a
  apply Fin.ext
  have e := k0_off2_eq i
  match a with
  | ⟨0, _⟩ => show k0_off2 i 0 + 1 * 0 = (i 0).val; rw [e]; rfl
  | ⟨1, _⟩ => show k0_off2 i 1 + 1 * 0 = (i 1).val; rw [e]; rfl
  | ⟨2, _⟩ => show k0_off2 i 2 + 1 * 0 = 1; rw [e]; rfl

theorem numel_pos_111 : 0 < S1x1x1.numel := by decide

/-- The load of channel `ch` of the image block held in the input's staging buffer. -/
abbrev chan (arg3 : Memref sig .tc .vmem S1x3x224x224 .f32) (harg3 : arg3.IsWhole) (x0 : Vec Ideal S1x3x224x224 .f32)
    (off : Fin 4 → ℕ) (inb : ∀ a, off a + S1x1x224x224.size a ≤ S1x3x224x224.size a) : Vec Ideal S1x1x224x224 .f32 :=
  View.readAt (Elt Ideal) arg3.view (Rect.unit (s := S1x3x224x224) off S1x1x224x224.size inb).toLoadRect (harg3.unread x0)

/-- The pieces the body's three stores leave (last first), over the table's two words at the grid point. -/
theorem pieces_eq (c : Dev nD) (i : grid0.Coords) (arg3 : Memref sig .tc .vmem S1x3x224x224 .f32) (harg3 : arg3.IsWhole)
    (arg4 : Memref sig .tc .vmem S1x3x192x192 .f32) (harg4 : arg4.IsWhole)
    (x0 : Vec Ideal S1x3x224x224 .f32) (xt0 : TbBuf0 (F := Ideal) c tbM0_0) :
    (kernelRun0_A c i arg3 harg3 arg4 harg4 x0 xt0).1 =
      ([⟨Rect.unit (s := S1x3x192x192) ![0, 2, 0, 0] S1x1x192x192.size inb_S1x3x192x192_S1x1x192x192_0_2_0_0,
          k0_pay2 (k0_pay3 (corner xt0 i 0)) (k0_pay4 (corner xt0 i 1)) (chan arg3 harg3 x0 ![0, 2, 0, 0] inb_S1x3x224x224_S1x1x224x224_0_2_0_0)⟩,
        ⟨Rect.unit (s := S1x3x192x192) ![0, 1, 0, 0] S1x1x192x192.size inb_S1x3x192x192_S1x1x192x192_0_1_0_0,
          k0_pay1 (k0_pay6 (corner xt0 i 0) (corner xt0 i 1) (chan arg3 harg3 x0 ![0, 1, 0, 0] inb_S1x3x224x224_S1x1x224x224_0_1_0_0))⟩,
        ⟨Rect.unit (s := S1x3x192x192) ![0, 0, 0, 0] S1x1x192x192.size inb_S1x3x192x192_S1x1x192x192_0_0_0_0,
          k0_pay5 (corner xt0 i 0) (corner xt0 i 1) (chan arg3 harg3 x0 ![0, 0, 0, 0] inb_S1x3x224x224_S1x1x224x224_0_0_0_0)⟩]
        : List (View.Piece (Elt Ideal) S1x3x192x192 .f32)) := by
  rw [← word0_eq c i xt0 numel_pos_111, ← word1_eq c i xt0 numel_pos_111]
  rfl

/-- The window of channel `ch`, read through the staged block, is the block's function at the piece's index. -/
theorem win_chan (arg3 : Memref sig .tc .vmem S1x3x224x224 .f32) (harg3 : arg3.IsWhole) (x0 : Vec Ideal S1x3x224x224 .f32)
    (r cc ch : ℕ) (inb : ∀ a, (![0, ch, 0, 0] : Fin 4 → ℕ) a + S1x1x224x224.size a ≤ S1x3x224x224.size a)
    (inb' : ∀ a, (![0, ch, 0, 0] : Fin 4 → ℕ) a + S1x1x192x192.size a ≤ S1x3x192x192.size a)
    (x : (Rect.unit (s := S1x3x192x192) ![0, ch, 0, 0] S1x1x192x192.size inb').shape.Idx) :
    Cert.Crop.window r cc (chan arg3 harg3 x0 ![0, ch, 0, 0] inb) x
      = blockWin r cc x0 ((Rect.unit (s := S1x3x192x192) ![0, ch, 0, 0] S1x1x192x192.size inb').emb x) := by
  unfold Cert.Crop.window blockWin chan
  rw [harg3.readAt_unread]
  congr 1
  funext a
  apply Fin.ext
  have hx1 : (x 1).val < 1 := (x 1).isLt
  match a with
  | ⟨0, _⟩ => show 0 + 1 * 0 = 0; omega
  | ⟨1, _⟩ => show ch + 1 * 0 = ch + 1 * (x 1).val; omega
  | ⟨2, _⟩ => show 0 + 1 * ((r + (x 2).val) % 224) = (r + (0 + 1 * (x 2).val)) % 224; omega
  | ⟨3, _⟩ => show 0 + 1 * ((cc + (x 3).val) % 224) = (cc + (0 + 1 * (x 3).val)) % 224; omega

/-- What the body leaves in the output's staging buffer at grid point `i`, the input's holding the image block `x0`:
    the three channels' windows at the corner the table gives for `i`, when that corner is in range. Each of the three
    stores writes one channel's window, and the three tile the block. -/
theorem out_eq (c : Dev nD) (i : grid0.Coords) (arg3 : Memref sig .tc .vmem S1x3x224x224 .f32) (harg3 : arg3.IsWhole)
    (arg4 : Memref sig .tc .vmem S1x3x192x192 .f32) (harg4 : arg4.IsWhole)
    (x0 : Vec Ideal S1x3x224x224 .f32) (xt0 : TbBuf0 (F := Ideal) c tbM0_0)
    (h0 : (corner xt0 i 0).toNat ≤ 32) (h1 : (corner xt0 i 1).toNat ≤ 32) :
    out0_A_1 c i arg3 harg3 arg4 harg4 x0 xt0 = blockWin (corner xt0 i 0).toNat (corner xt0 i 1).toNat x0 := by
  unfold out0_A_1
  rw [View.read_writes_eq_canon _ _ _ (cover0_A_1 c i arg3 harg3 arg4 harg4 x0 xt0)]
  funext y
  have hc := cover0_A_1 c i arg3 harg3 arg4 harg4 x0 xt0 y
  rw [pieces_eq] at hc ⊢
  refine View.canon_apply_of_pieces (blockWin (corner xt0 i 0).toNat (corner xt0 i 1).toNat x0) _ ?_ y hc
  intro p hp
  simp only [List.mem_cons, List.not_mem_nil, or_false] at hp
  rcases hp with rfl | rfl | rfl
  · intro x
    dsimp only
    rw [Payload.pay2_eq _ _ h0 h1]
    exact win_chan arg3 harg3 x0 _ _ 2 _ _ x
  · intro x
    dsimp only
    rw [Payload.pay1_eq _ _ h0 h1]
    exact win_chan arg3 harg3 x0 _ _ 1 _ _ x
  · intro x
    dsimp only
    rw [Payload.pay5_eq _ _ h0 h1]
    exact win_chan arg3 harg3 x0 _ _ 0 _ _ x

/-! ## From blocks to the array -/

variable (m : (ℓ : Loc nD τ sig) → Buf (Elt Ideal) ℓ) (ρ : Dev nD → PrngReg)

/-- The table of corners as the region finds it. -/
abbrev tab : IVec S64x8x2 32 := tbl m 0

/-- The grid is `64 × 8`, row-major: point `t` is image `t / 8`, crop `t % 8`. -/
theorem coords_eq : ∀ t : Fin grid0.N, (grid0.coords t 0).val = t.val / 8 ∧ (grid0.coords t 1).val = t.val % 8 := by
  decide +kernel

/-- The input's block at point `t` is image `t / 8`; the output's is crop `t`. -/
theorem index_eq (a : (pcfg0 (F := Ideal)).Adm) : ∀ t : Fin (cfg0 a).N,
    ((cfg0 a).win 0).index t = ![t.val / 8, 0, 0, 0] ∧ ((cfg0 a).win 1).index t = ![t.val, 0, 0, 0] :=
  (by decide +kernel : ∀ t : Fin grid0.N, cc0_transform_0 (grid0.coords t) = ![t.val / 8, 0, 0, 0] ∧ cc0_transform_1 (grid0.coords t) = ![t.val, 0, 0, 0])

/-- WHAT POINT `t` WRITES BACK is block `t` of the crop of the arrays as the region finds them. -/
theorem flushed_eq (hO : Ok m) (hR : Cert.Crop.InRange (tab m)) (c : Dev nD) (t : Fin (cfgM m hO).N) :
    (dats m hO 0 c).flushed 1 t = (((cfgM m hO).win 1).blk t).view.read (Elt Ideal) (Cert.Crop.crop (V m c main_arg0) (tab m)) := by
  show ((cfgM m hO).win 1).cut (grid0.coords t) ((dats m hO 0 c).after 1 t) = _
  rw [after0_1]
  unfold outsAt0
  have h0 : (corner (tbl m 0) (grid0.coords t) 0).toNat ≤ 32 := hR (grid0.coords t 0) (grid0.coords t 1) 0
  have h1 : (corner (tbl m 0) (grid0.coords t) 1).toNat ≤ 32 := hR (grid0.coords t 0) (grid0.coords t 1) 1
  have e := out_eq c (grid0.coords t) (ms0_0 m hO t) (hs0_0 m hO t) (ms0_1 m hO t) (hs0_1 m hO t) (iblk m hO c 0 t) (tbl m 0) h0 h1
  funext j
  show out0_A_1 c (grid0.coords t) (ms0_0 m hO t) (hs0_0 m hO t) (ms0_1 m hO t) (hs0_1 m hO t) (iblk m hO c 0 t) (tbl m 0) j
    = Cert.Crop.crop (V m c main_arg0) (tab m) ((((cfgM m hO).win 1).blk t).view.emb j)
  rw [e]
  obtain ⟨i0, i1⟩ := index_eq (adm m hO) t
  obtain ⟨c0, c1⟩ := coords_eq t
  have q00 : ((cfgM m hO).win 0).index t (0 : Fin 4) = t.val / 8 := congrFun i0 (0 : Fin 4)
  have q01 : ((cfgM m hO).win 0).index t (1 : Fin 4) = 0 := congrFun i0 (1 : Fin 4)
  have q02 : ((cfgM m hO).win 0).index t (2 : Fin 4) = 0 := congrFun i0 (2 : Fin 4)
  have q03 : ((cfgM m hO).win 0).index t (3 : Fin 4) = 0 := congrFun i0 (3 : Fin 4)
  have q10 : ((cfgM m hO).win 1).index t (0 : Fin 4) = t.val := congrFun i1 (0 : Fin 4)
  have q11 : ((cfgM m hO).win 1).index t (1 : Fin 4) = 0 := congrFun i1 (1 : Fin 4)
  have q12 : ((cfgM m hO).win 1).index t (2 : Fin 4) = 0 := congrFun i1 (2 : Fin 4)
  have q13 : ((cfgM m hO).win 1).index t (3 : Fin 4) = 0 := congrFun i1 (3 : Fin 4)
  have hj0 : (j (0 : Fin 4)).val < 1 := (j (0 : Fin 4)).isLt
  have e0 : ((((cfgM m hO).win 1).blk t).view.emb j (0 : Fin 4)).val = t.val := by
    show ((cfgM m hO).win 1).index t (0 : Fin 4) * 1 + 1 * (j (0 : Fin 4)).val = t.val
    rw [q10]; omega
  have e1 : ((((cfgM m hO).win 1).blk t).view.emb j (1 : Fin 4)).val = (j (1 : Fin 4)).val := by
    show ((cfgM m hO).win 1).index t (1 : Fin 4) * 3 + 1 * (j (1 : Fin 4)).val = (j (1 : Fin 4)).val
    rw [q11]; omega
  have e2 : ((((cfgM m hO).win 1).blk t).view.emb j (2 : Fin 4)).val = (j (2 : Fin 4)).val := by
    show ((cfgM m hO).win 1).index t (2 : Fin 4) * 192 + 1 * (j (2 : Fin 4)).val = (j (2 : Fin 4)).val
    rw [q12]; omega
  have e3 : ((((cfgM m hO).win 1).blk t).view.emb j (3 : Fin 4)).val = (j (3 : Fin 4)).val := by
    show ((cfgM m hO).win 1).index t (3 : Fin 4) * 192 + 1 * (j (3 : Fin 4)).val = (j (3 : Fin 4)).val
    rw [q13]; omega
  have hb : Cert.Crop.imageOf ((((cfgM m hO).win 1).blk t).view.emb j (0 : Fin 4)) = grid0.coords t 0 :=
    Fin.ext (by show ((((cfgM m hO).win 1).blk t).view.emb j (0 : Fin 4)).val / 8 = (grid0.coords t 0).val; rw [e0, c0])
  have hn : Cert.Crop.cropOf ((((cfgM m hO).win 1).blk t).view.emb j (0 : Fin 4)) = grid0.coords t 1 :=
    Fin.ext (by show ((((cfgM m hO).win 1).blk t).view.emb j (0 : Fin 4)).val % 8 = (grid0.coords t 1).val; rw [e0, c1])
  have ho0 : Cert.Crop.off (tab m) (Cert.Crop.imageOf ((((cfgM m hO).win 1).blk t).view.emb j (0 : Fin 4)))
      (Cert.Crop.cropOf ((((cfgM m hO).win 1).blk t).view.emb j (0 : Fin 4))) 0 = (corner (tbl m 0) (grid0.coords t) 0).toNat := by
    rw [hb, hn]; rfl
  have ho1 : Cert.Crop.off (tab m) (Cert.Crop.imageOf ((((cfgM m hO).win 1).blk t).view.emb j (0 : Fin 4)))
      (Cert.Crop.cropOf ((((cfgM m hO).win 1).blk t).view.emb j (0 : Fin 4))) 1 = (corner (tbl m 0) (grid0.coords t) 1).toNat := by
    rw [hb, hn]; rfl
  unfold blockWin Cert.Crop.crop iblk
  show V m c main_arg0 _ = V m c main_arg0 _
  congr 1
  funext a
  apply Fin.ext
  match a with
  | ⟨0, _⟩ =>
    show ((cfgM m hO).win 0).index t (0 : Fin 4) * 1 + 1 * 0 = ((((cfgM m hO).win 1).blk t).view.emb j (0 : Fin 4)).val / 8
    rw [q00, e0]; omega
  | ⟨1, _⟩ =>
    show ((cfgM m hO).win 0).index t (1 : Fin 4) * 3 + 1 * (j (1 : Fin 4)).val = ((((cfgM m hO).win 1).blk t).view.emb j (1 : Fin 4)).val
    rw [q01, e1]; omega
  | ⟨2, _⟩ =>
    show ((cfgM m hO).win 0).index t (2 : Fin 4) * 224 + 1 * (((corner (tbl m 0) (grid0.coords t) 0).toNat + (j (2 : Fin 4)).val) % 224)
      = (Cert.Crop.off (tab m) (Cert.Crop.imageOf ((((cfgM m hO).win 1).blk t).view.emb j (0 : Fin 4)))
          (Cert.Crop.cropOf ((((cfgM m hO).win 1).blk t).view.emb j (0 : Fin 4))) 0 + ((((cfgM m hO).win 1).blk t).view.emb j (2 : Fin 4)).val) % 224
    rw [q02, ho0, e2]; omega
  | ⟨3, _⟩ =>
    show ((cfgM m hO).win 0).index t (3 : Fin 4) * 224 + 1 * (((corner (tbl m 0) (grid0.coords t) 1).toNat + (j (3 : Fin 4)).val) % 224)
      = (Cert.Crop.off (tab m) (Cert.Crop.imageOf ((((cfgM m hO).win 1).blk t).view.emb j (0 : Fin 4)))
          (Cert.Crop.cropOf ((((cfgM m hO).win 1).blk t).view.emb j (0 : Fin 4))) 1 + ((((cfgM m hO).win 1).blk t).view.emb j (3 : Fin 4)).val) % 224
    rw [q03, ho1, e3]; omega

/-- THE ARRAY after the run: crop `t` of the result array is written back by point `t` and by no other, and the 512
    blocks tile the array, so it ends holding the crop of the image batch at the table of corners. -/
theorem final (hO : Ok m) (hR : Cert.Crop.InRange (tab m)) (c : Dev nD) :
    (dats m hO 0 c).arrAt 1 (cfgM m hO).N = Cert.Crop.crop (V m c main_arg0) (tab m) :=
  (dats m hO 0 c).arrAt_eq_of_cover 1 (Cert.Crop.crop (V m c main_arg0) (tab m)) (fun t _ => flushed_eq m hO hR c t) fun i => by
    have hi0 : (i (0 : Fin 4)).val < 512 := (i (0 : Fin 4)).isLt
    have hi1 : (i (1 : Fin 4)).val < 3 := (i (1 : Fin 4)).isLt
    have hi2 : (i (2 : Fin 4)).val < 192 := (i (2 : Fin 4)).isLt
    have hi3 : (i (3 : Fin 4)).val < 192 := (i (3 : Fin 4)).isLt
    let t : Fin (cfgM m hO).N := ⟨(i (0 : Fin 4)).val, by show (i (0 : Fin 4)).val < grid0.N; rw [N_0]; exact hi0⟩
    refine ⟨t, flush0_1 (adm m hO) t, ?_⟩
    obtain ⟨-, i1⟩ := index_eq (adm m hO) t
    have q10 : ((cfgM m hO).win 1).index t (0 : Fin 4) = (i (0 : Fin 4)).val := congrFun i1 (0 : Fin 4)
    have q11 : ((cfgM m hO).win 1).index t (1 : Fin 4) = 0 := congrFun i1 (1 : Fin 4)
    have q12 : ((cfgM m hO).win 1).index t (2 : Fin 4) = 0 := congrFun i1 (2 : Fin 4)
    have q13 : ((cfgM m hO).win 1).index t (3 : Fin 4) = 0 := congrFun i1 (3 : Fin 4)
    have key : ∀ r : Rect main_v0.ty.shape, i ∈ r.set → i ∈ ((View.whole main_v0).slice r).set :=
      fun r h => by rw [View.set_slice_whole]; exact h
    refine key (((cfgM m hO).win 1).rect t) (Rect.mem_set_unit.mpr fun a => ?_)
    match a with
    | ⟨0, _⟩ =>
      show ((cfgM m hO).win 1).index t (0 : Fin 4) * 1 ≤ (i (0 : Fin 4)).val ∧ (i (0 : Fin 4)).val < ((cfgM m hO).win 1).index t (0 : Fin 4) * 1 + 1
      rw [q10]; omega
    | ⟨1, _⟩ =>
      show ((cfgM m hO).win 1).index t (1 : Fin 4) * 3 ≤ (i (1 : Fin 4)).val ∧ (i (1 : Fin 4)).val < ((cfgM m hO).win 1).index t (1 : Fin 4) * 3 + 3
      rw [q11]; omega
    | ⟨2, _⟩ =>
      show ((cfgM m hO).win 1).index t (2 : Fin 4) * 192 ≤ (i (2 : Fin 4)).val ∧ (i (2 : Fin 4)).val < ((cfgM m hO).win 1).index t (2 : Fin 4) * 192 + 192
      rw [q12]; omega
    | ⟨3, _⟩ =>
      show ((cfgM m hO).win 1).index t (3 : Fin 4) * 192 ≤ (i (3 : Fin 4)).val ∧ (i (3 : Fin 4)).val < ((cfgM m hO).win 1).index t (3 : Fin 4) * 192 + 192
      rw [q13]; omega

/-- The run, read: every weakly fair execution ends with the result array at the crop of the argument arrays, and the
    argument arrays as they were. -/
theorem run (hO : Ok m) (hR : Cert.Crop.InRange (tab m)) :
    θ_run defs (onTc (τ := τ) (main (F := Ideal))) ⟨m, fun _ => 0, ρ⟩ fun r => ∀ c : Dev nD,
      r.2.mem ((c.tc : Thread nD τ).loc main_v0) = Cert.Crop.crop (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
      obtain rfl : c = 0 := Subsingleton.elim _ _
      exact ⟨((h 0).1 1).trans (final m hO hR 0),
        ((h 0).1 0).trans (((dats m hO 0 0).arrAt_in 0 rfl _).trans ((A_eq m hO 0 0).trans (V_main_arg0 m 0))),
        ((h 0).2 main_arg1 (by decide : main_arg1 ∈ Pipeline.restRefs sig spec0)).trans (V_main_arg1 m 0)⟩)
    (run_main m ρ hO)

end Cert.KernelIdeal.KValue

end
-- ==== Proof.lean ====
/-
  Random crops as a gather: from each of 64 three-channel `224 × 224` images eight `192 × 192` crops are cut at the
  top-left corners a table `[64, 8, 2]` gives (row offset, column offset). The kernel makes crop `n` of image `b` at grid
  point `(b, n)`: per channel the product `R · X · S` of the image `X` with the selection matrices `R[i, h] = [h = r + i]`
  and `S[w, j] = [w = c + j]`. The reference gathers the flattened image at the flat pixel indices `(r + i) · 224 + (c + j)`.
  Where every offset lies in `[0, 32]` — the crop inside its image, which is what the precondition adds to the inputs'
  finiteness — both are the image's pixel `(r + i, c + j)`: in each sum of the two products exactly one term is `1 · x`
  and the others are `0 · x = 0` on every extended real, and the flat index neither wraps nor is clamped.

  The modules: Spec (the crop as one function of the two arrays), PreRange (the precondition gives the range), Payload (the
  two products are the window), KernelValue (each output block is its image block's window, and the blocks tile the result),
  RefValue (the reference's gather is the crop). Here: the three frames, the empty idealization ledger, and the two runs
  ending at the same function.
-/
import proofs.«405093_j9062380994640_1_alg».proof.Defs
import proofs.«405093_j9062380994640_1_alg».proof.Proof.Gen.Kernel
import proofs.«405093_j9062380994640_1_alg».proof.Proof.Gen.Kernel.Skeleton
import proofs.«405093_j9062380994640_1_alg».proof.Proof.Gen.Kernel.Launch
import proofs.«405093_j9062380994640_1_alg».proof.Proof.Gen.Kernel.Points
import proofs.«405093_j9062380994640_1_alg».proof.Proof.Gen.Kernel.Frame
import proofs.«405093_j9062380994640_1_alg».proof.Proof.Gen.KernelIdeal
import proofs.«405093_j9062380994640_1_alg».proof.Proof.Gen.KernelIdeal.Skeleton
import proofs.«405093_j9062380994640_1_alg».proof.Proof.Gen.KernelIdeal.Launch
import proofs.«405093_j9062380994640_1_alg».proof.Proof.Gen.KernelIdeal.Points
import proofs.«405093_j9062380994640_1_alg».proof.Proof.Gen.KernelIdeal.Frame
import proofs.«405093_j9062380994640_1_alg».proof.Proof.Gen.ReferenceIdeal
import proofs.«405093_j9062380994640_1_alg».proof.Proof.Gen.ReferenceIdeal.Run
import proofs.«405093_j9062380994640_1_alg».proof.Proof.Gen.ReferenceIdeal.Read
import proofs.«405093_j9062380994640_1_alg».proof.Proof.Gen.Pre_finite_inputs
import proofs.«405093_j9062380994640_1_alg».proof.Proof.Spec
import proofs.«405093_j9062380994640_1_alg».proof.Proof.PreRange
import proofs.«405093_j9062380994640_1_alg».proof.Proof.RefValue
import proofs.«405093_j9062380994640_1_alg».proof.Proof.KernelValue
import Idealize.ShloMosaic.Adequacy
import Idealize.ShloMosaic.Init

noncomputable section

namespace Cert.Proof

open Idealize.ShloMosaic Idealize.SL.Sem

/-- No index map of the kernel reads the table of corners, so the pipeline asks nothing of its contents. -/
theorem ok_kernel (m : (ℓ : Loc Cert.Kernel.nD Cert.Kernel.τ Cert.Kernel.sig) → Buf (Elt Bits) ℓ) : Cert.Kernel.Gen.Ok m := by
  show True; trivial
theorem ok_kernelIdeal (m : (ℓ : Loc Cert.KernelIdeal.nD Cert.KernelIdeal.τ Cert.KernelIdeal.sig) → Buf (Elt Ideal) ℓ) :
    Cert.KernelIdeal.Gen.Ok m := by
  show True; trivial

theorem frame_k : Cert.frame_Kernel := fun m ρ _ => Cert.Kernel.Gen.frame m ρ (ok_kernel m)
theorem frame_ki : Cert.frame_KernelIdeal := fun m ρ _ => Cert.KernelIdeal.Gen.frame m ρ (ok_kernelIdeal m)
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Under the precondition every corner is in range, so the kernel's result array ends at the crop of its arguments and
    the reference's gather of arguments that agree with them is the same crop. -/
theorem algebraic : Cert.algebraic_KernelIdeal_ReferenceIdeal := by
  intro m ρ m' ρ' hpre hagree
  have hR : ∀ c : Dev Cert.KernelIdeal.nD,
      Cert.Crop.InRange (m ((c.tc : Thread Cert.KernelIdeal.nD Cert.KernelIdeal.τ).loc Cert.KernelIdeal.main_arg1)) :=
    fun c => Cert.Crop.inRange_of_pre _ _ (hpre c)
  refine ⟨fun c => Cert.Crop.crop (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ (ok_kernelIdeal m) (hR 0), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v32_eq, (hagree c).1, (hagree c).2]
  exact Cert.ReferenceIdeal.RefValue.ref_eq_crop _ _ (hR c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
